-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x512 : Shape := ⟨2, ![256, 512]⟩
abbrev S4096x512 : Shape := ⟨2, ![4096, 512]⟩
abbrev S256x4096 : Shape := ⟨2, ![256, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x512, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x4096.size a
  hwx0_0 : ∀ i : grid0.Coords, EltTy.bits .f32 = 32 ∨ (Rect.block (s := S8192x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Body.lean ====
/-
  What one run of the kernel body leaves behind, as values.

  The body keeps a running block `acc` of shape [256, 4096] in a scratch buffer.  At every grid point it
  replaces `acc` by `step a w acc` (the point's [256, 512] block `a` of the inputs against the point's
  [4096, 512] block `w` of the weights, added to `acc`); at the first point of a row block it first overwrites
  `acc` with the zero block, so what it leaves is `step a w 0`; at the last point of a row block it also stores
  `finish acc' b` (the new running block plus the bias row) into the output block.  Here `step`, the zero block and
  `finish` are the body's three store payloads.  Each statement below holds for any float instance: the
  stores cover their buffers whole, and every load reads a whole buffer back.
-/
import proofs.«146340_j15874199126079_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offset of a whole-buffer rectangle. -/
theorem hz : (![0, 0] : Fin 2 → Nat) = fun _ => 0 := funext fun a => by fin_cases a <;> rfl

/-- First point of a row block: the running block is reset, read back, and stepped once: `step a w 0`. -/
theorem scratch_first (c : Dev nD) (i : grid0.Coords) (arg2 : Memref sig .tc .vmem S256x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : cond0_0 i) (hc1 : ¬cond0_1 i)
    (x0 : Vec F S256x512 .f32) (x1 : Vec F S4096x512 .f32) (x2 : Vec F S1x4096 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x4096) hz]
  simp only [View.readCov_unit_zero (S := S256x4096) _ hz, View.readAt_eq_ld, harg2.read_unread, harg3.read_unread,
    View.ld_unit_zero (S := S256x512) hz, View.ld_unit_zero (S := S4096x512) hz]

/-- A middle point: the running block the point before left is stepped once. -/
theorem scratch_middle (c : Dev nD) (i : grid0.Coords) (arg2 : Memref sig .tc .vmem S256x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : ¬cond0_1 i)
    (x0 : Vec F S256x512 .f32) (x1 : Vec F S4096x512 .f32) (x2 : Vec F S1x4096 .f32) (xs0 : Vec F S256x4096 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread,
    View.ld_unit_zero (S := S256x512) hz, View.ld_unit_zero (S := S4096x512) hz, View.ld_unit_zero (S := S256x4096) hz]

/-- The last point of a row block steps the running block the same way … -/
theorem scratch_last (c : Dev nD) (i : grid0.Coords) (arg2 : Memref sig .tc .vmem S256x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x512 .f32) (x1 : Vec F S4096x512 .f32) (x2 : Vec F S1x4096 .f32) (xs0 : Vec F S256x4096 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S256x512) hz, View.ld_unit_zero (S := S4096x512) hz, View.ld_unit_zero (S := S256x4096) hz]

/-- … and stores the stepped block plus the bias row into the output block. -/
theorem out_last (c : Dev nD) (i : grid0.Coords) (arg2 : Memref sig .tc .vmem S256x512 .f32) (harg2 : arg2.IsWhole) (arg3 : Memref sig .tc .vmem S4096x512 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole) (hc0 : ¬cond0_0 i) (hc1 : cond0_1 i)
    (x0 : Vec F S256x512 .f32) (x1 : Vec F S4096x512 .f32) (x2 : Vec F S1x4096 .f32) (xs0 : Vec F S256x4096 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readCov_unit_zero (S := S256x4096) _ hz, View.readAt_eq_ld, harg2.read_unread, harg3.read_unread,
    harg4.read_unread, harg6.read_unread, View.ld_unit_zero (S := S256x512) hz, View.ld_unit_zero (S := S4096x512) hz,
    View.ld_unit_zero (S := S256x4096) hz, View.ld_unit_zero (S := S1x4096) hz]

end Cert.KernelIdeal.Body

end
-- ==== Proof.Blocks.lean ====
/-
  The windows' blocks, read off the arrays.

  Grid point `t` of the 32 × 8 grid is row block `t / 8`, stretch `t % 8` of the contracted axis.  There the
  input window holds rows `256·(t/8) …` and columns `512·(t%8) …` of the inputs, the weight window holds all
  4096 rows and the same columns of the weights, the bias window holds the bias as one row (the host reshaped the
  [4096] bias to [1, 4096] before the call), and the output window is rows `256·(t/8) …`, all columns, of the
  result.  Stated for any float instance.
-/
import proofs.«146340_j15874199126079_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three argument arrays as launched, at their literal shapes. -/
abbrev xarr (c : Dev nD) : Vec F S8192x4096 .f32 := m ((c : Thread nD τ).loc main_arg0)
abbrev warr (c : Dev nD) : Vec F S4096x4096 .f32 := m ((c : Thread nD τ).loc main_arg1)
abbrev barr (c : Dev nD) : Vec F S4096 .f32 := m ((c : Thread nD τ).loc main_arg2)

/-- The three input blocks at a point, at their literal shapes. -/
abbrev xblk (c : Dev nD) (t : Fin cfg0.N) : Vec F S256x512 .f32 := iblk m c 0 t
abbrev wblk (c : Dev nD) (t : Fin cfg0.N) : Vec F S4096x512 .f32 := iblk m c 1 t
abbrev bblk (c : Dev nD) (t : Fin cfg0.N) : Vec F S1x4096 .f32 := iblk m c 2 t

/-- The printed index maps, decided once over the 256 grid points. -/
theorem idx_facts : ∀ t : Fin cfg0.N, win0_0.index t 0 = t.val / 8 ∧ win0_0.index t 1 = t.val % 8
    ∧ win0_1.index t 0 = 0 ∧ win0_1.index t 1 = t.val % 8 ∧ win0_2.index t 0 = 0 ∧ win0_2.index t 1 = 0
    ∧ win0_3.index t 0 = t.val / 8 ∧ win0_3.index t 1 = 0 :=
  (by decide +kernel : ∀ t : Fin grid0.N, _)

/-- Entry `(p, j)` of the input block is entry `(256·(t/8) + p, 512·(t%8) + j)` of the inputs. -/
theorem xblk_apply (c : Dev nD) (t : Fin cfg0.N) (p : Fin 256) (j : Fin 512) (r : Fin 8192) (k : Fin 4096)
    (hr : r.val = 256 * (t.val / 8) + p.val) (hk : k.val = 512 * (t.val % 8) + j.val) :
    xblk m c t (ix2 p j) = xarr m c (ix2 r k) := by
  show ((cfg0.win 0).blk t).view.read (Elt F) (V m c (Pipeline.arrRef spec0 0)) (ix2 p j) = _
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * p.val = r.val; rw [(idx_facts t).1]; omega
  | ⟨1, _⟩ => show win0_0.index t 1 * 512 + 1 * j.val = k.val; rw [(idx_facts t).2.1]; omega

/-- Entry `(q, j)` of the weight block is entry `(q, 512·(t%8) + j)` of the weights. -/
theorem wblk_apply (c : Dev nD) (t : Fin cfg0.N) (q : Fin 4096) (j : Fin 512) (k : Fin 4096)
    (hk : k.val = 512 * (t.val % 8) + j.val) :
    wblk m c t (ix2 q j) = warr m c (ix2 q k) := by
  show ((cfg0.win 1).blk t).view.read (Elt F) (V m c (Pipeline.arrRef spec0 1)) (ix2 q j) = _
  rw [View.read_apply]
  show V m c main_arg1 _ = _
  rw [V_main_arg1]
  refine congrArg (m ((c : Thread nD τ).loc main_arg1)) (funext fun a => Fin.ext ?_)
  match a with
  | ⟨0, _⟩ => show win0_1.index t 0 * 4096 + 1 * q.val = q.val; rw [(idx_facts t).2.2.1]; omega
  | ⟨1, _⟩ => show win0_1.index t 1 * 512 + 1 * j.val = k.val; rw [(idx_facts t).2.2.2.1]; omega

/-- What the region finds in the [1, 4096] array the bias window stages: the bias, reshaped by the host. -/
theorem V_bias (c : Dev nD) :
    (V m c main_v0 : S1x4096.Idx → Elt F .f32) = shapeCast S1x4096 (barr m c) shapeCasts_S4096_S1x4096 := by
  dsimp only [Gen.V, Gen.hostOps0]
  after_results
  rfl

/-- Entry `(0, q)` of the bias block is entry `q` of the bias. -/
theorem bblk_apply (c : Dev nD) (t : Fin cfg0.N) (q : Fin 4096) :
    bblk m c t (ix2 (0 : Fin 1) q) = barr m c (ix1 q) := by
  show ((cfg0.win 2).blk t).view.read (Elt F) (V m c (Pipeline.arrRef spec0 2)) (ix2 (0 : Fin 1) q) = _
  rw [View.read_apply]
  show (V m c main_v0 : S1x4096.Idx → Elt F .f32) _ = _
  rw [V_bias]
  have he : ((cfg0.win 2).blk t).view.emb (ix2 (0 : Fin 1) q) = ix2 (0 : Fin 1) q := funext fun a => Fin.ext (by
    match a with
    | ⟨0, _⟩ => show win0_2.index t 0 * 1 + 1 * 0 = 0; rw [(idx_facts t).2.2.2.2.1]
    | ⟨1, _⟩ => show win0_2.index t 1 * 4096 + 1 * q.val = q.val; rw [(idx_facts t).2.2.2.2.2.1]; omega)
  rw [he]
  exact shapeCast_a_1a_apply (barr m c) shapeCasts_S4096_S1x4096 (0 : Fin 1) q

/-- Entry `(p, q)` of the output block is entry `(256·(t/8) + p, q)` of the result array. -/
theorem oblk_emb (t : Fin cfg0.N) (p : Fin 256) (q : Fin 4096) (r : Fin 8192) (hr : r.val = 256 * (t.val / 8) + p.val) :
    ((cfg0.win 3).blk t).view.emb (ix2 p q) = ix2 r q := funext fun a => Fin.ext (by
  match a with
  | ⟨0, _⟩ => show win0_3.index t 0 * 256 + 1 * p.val = r.val; rw [(idx_facts t).2.2.2.2.2.2.1]; omega
  | ⟨1, _⟩ => show win0_3.index t 1 * 4096 + 1 * q.val = q.val; rw [(idx_facts t).2.2.2.2.2.2.2]; omega)

end Cert.KernelIdeal.Blocks

end
-- ==== Proof.Carried.lean ====
/-
  The running block from one grid point to the next.

  After the first point of a row block the scratch holds one step from the zero block; after any other point it
  holds one step from what the point before left; and the last point of a row block writes to the output block the
  finish of what it has just left in the scratch.  Stated for any float instance.
-/
import proofs.«146340_j15874199126079_1_alg».proof.Proof.Body
import proofs.«146340_j15874199126079_1_alg».proof.Proof.Blocks

noncomputable section

open Idealize.ShloMosaic Idealize.ShloMosaic.TcCoe Idealize.SL.Sem

namespace Cert.KernelIdeal.Carried

open Cert.KernelIdeal Cert.KernelIdeal.Gen Cert.KernelIdeal.Blocks

variable {F : FTy → Type} [FloatOps F]
variable (m : (ℓ : Loc nD τ sig) → Buf (Elt F) ℓ)

/-- What the scratch holds after point `t`. -/
abbrev acc (c : Dev nD) (t : Fin cfg0.N) : Vec F S256x4096 .f32 := (outsAt0 m c t.val t.isLt).2

/-- What the scratch holds after the point before `t`. -/
abbrev accBefore (c : Dev nD) (t : Fin cfg0.N) : Vec F S256x4096 .f32 := (outsAt0 m c (t.val - 1) (Nat.lt_of_le_of_lt (Nat.sub_le _ _) t.isLt)).2

/-- First point of a row block: one step from the zero block. -/
theorem acc_first (c : Dev nD) (t : Fin cfg0.N) (h0 : t.val % 8 = 0) :
    acc m c t = k0_pay2 (xblk m c t) (wblk m c t) (k0_pay1 (F := F)) := by
  have h1 : ¬t.val % 8 = 7 := by omega
  show (outsAt0 m c t.val t.isLt).2 = _
  rw [outsAt0_A m c t h0 h1]
  dsimp only
  exact Body.scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- Any other point: one step from what the point before left. -/
theorem acc_next (c : Dev nD) (t : Fin cfg0.N) (h0 : ¬t.val % 8 = 0) :
    acc m c t = k0_pay2 (xblk m c t) (wblk m c t) (accBefore m c t) := by
  show (outsAt0 m c t.val t.isLt).2 = _
  by_cases h1 : t.val % 8 = 7
  · rw [outsAt0_C m c t h0 h1]
    dsimp only
    exact Body.scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Body.scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- Last point of a row block: the output block is the finish of the scratch the point leaves. -/
theorem out_last (c : Dev nD) (t : Fin cfg0.N) (h1 : t.val % 8 = 7) :
    (outsAt0 m c t.val t.isLt).1 = k0_pay3 (acc m c t) (bblk m c t) := by
  have h0 : ¬t.val % 8 = 0 := by omega
  rw [acc_next m c t h0, outsAt0_C m c t h0 h1]
  dsimp only
  exact Body.out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Cert.KernelIdeal.Carried

end
-- ==== Proof.BodyAt.lean ====
/-
  The body's three payloads read at an index, at the ideal values.

  At `(p, q)` of a [256, 4096] block: the reset block is `0`; a step adds to the running block row `p` of the
  [256, 512] input block against row `q` of the [4096, 512] weight block (both narrowed to bf16 first, which at
  the ideal values changes nothing; the matrix unit contracts the second axis of both into a zero accumulator);
  the finish adds the one bias row, broadcast down the rows.
-/
import proofs.«146340_j15874199126079_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.ShloMosaic.ValueIdx

namespace Cert.KernelIdeal.BodyAt

open Cert.KernelIdeal Cert.KernelIdeal.Gen

/-- The reset block is zero everywhere. -/
theorem reset_apply (i : S256x4096.Idx) : k0_pay1 (F := Ideal) i = 0 := by
  unfold k0_pay1
  simp only [shapeCast_self]
  exact Ideal.ofBits_zero_f32

/-! The operand indices of the contraction: the output's row picks the left operand's row, the output's column
    the right operand's ROW, and the one contracted coordinate is the second axis of both. -/

theorem lhs_0 (i : S256x4096.Idx) (k : dot_S256x512_S4096x512_S256x4096_1_1_0_0_n_n.contr.Idx) : (dot_S256x512_S4096x512_S256x4096_1_1_0_0_n_n.lhsIdx i k 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl

theorem lhs_1 (i : S256x4096.Idx) (k : dot_S256x512_S4096x512_S256x4096_1_1_0_0_n_n.contr.Idx) : (dot_S256x512_S4096x512_S256x4096_1_1_0_0_n_n.lhsIdx i k 1).val = (k ⟨0, by decide⟩).val :=
  dot_S256x512_S4096x512_S256x4096_1_1_0_0_n_n.lhsIdx_val_of_single rfl i k

theorem rhs_0 (i : S256x4096.Idx) (k : dot_S256x512_S4096x512_S256x4096_1_1_0_0_n_n.contr.Idx) : (dot_S256x512_S4096x512_S256x4096_1_1_0_0_n_n.rhsIdx i k 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl

theorem rhs_1 (i : S256x4096.Idx) (k : dot_S256x512_S4096x512_S256x4096_1_1_0_0_n_n.contr.Idx) : (dot_S256x512_S4096x512_S256x4096_1_1_0_0_n_n.rhsIdx i k 1).val = (k ⟨0, by decide⟩).val :=
  dot_S256x512_S4096x512_S256x4096_1_1_0_0_n_n.rhsIdx_val_of_single rfl i k

/-- The matrix unit's product into the zero accumulator at `(p, q)`: row `p` of `a` against row `q` of `w`. -/
theorem product_apply {φ₁ φ₂ : FTy} (a : FVec Ideal S256x512 φ₁) (w : FVec Ideal S4096x512 φ₂) (p : Fin 256) (q : Fin 4096) :
    matmul dot_S256x512_S4096x512_S256x4096_1_1_0_0_n_n none a w (constant S256x4096 .f32 0x00000000#32) (ix2 p q) = ∑ j : Fin 512, a (ix2 p j) * w (ix2 q j) := by
  show FloatOps.matmul dot_S256x512_S4096x512_S256x4096_1_1_0_0_n_n none a w (constant S256x4096 .f32 0x00000000#32) (ix2 p q) = _
  rw [Ideal.matmul_constant_zero_apply, ← Equiv.sum_comp (contrEquiv1 dot_S256x512_S4096x512_S256x4096_1_1_0_0_n_n 512 rfl rfl).symm]
  refine Finset.sum_congr rfl fun j _ => ?_
  have hj := contrEquiv1_symm_val dot_S256x512_S4096x512_S256x4096_1_1_0_0_n_n 512 rfl rfl j
  have el : dot_S256x512_S4096x512_S256x4096_1_1_0_0_n_n.lhsIdx (ix2 p q) ((contrEquiv1 dot_S256x512_S4096x512_S256x4096_1_1_0_0_n_n 512 rfl rfl).symm j) = ix2 p j := funext fun ax => Fin.ext (by
    match ax with
    | ⟨0, _⟩ => exact lhs_0 _ _
    | ⟨1, _⟩ => exact (lhs_1 _ _).trans hj)
  have er : dot_S256x512_S4096x512_S256x4096_1_1_0_0_n_n.rhsIdx (ix2 p q) ((contrEquiv1 dot_S256x512_S4096x512_S256x4096_1_1_0_0_n_n 512 rfl rfl).symm j) = ix2 q j := funext fun ax => Fin.ext (by
    match ax with
    | ⟨0, _⟩ => exact rhs_0 _ _
    | ⟨1, _⟩ => exact (rhs_1 _ _).trans hj)
  rw [el, er]

/-- A step at `(p, q)`: the running entry plus 512 more products. -/
theorem step_apply (a : Vec Ideal S256x512 .f32) (w : Vec Ideal S4096x512 .f32) (acc : Vec Ideal S256x4096 .f32)
    (p : Fin 256) (q : Fin 4096) :
    k0_pay2 (F := Ideal) a w acc (ix2 p q) = acc (ix2 p q) + ∑ j : Fin 512, a (ix2 p j) * w (ix2 q j) := by
  unfold k0_pay2
  simp only [shapeCast_self]
  refine (congrArg (acc (ix2 p q) + ·) (product_apply (truncf (F := Ideal) .bf16 a bitsLt_bf16_f32)
    (truncf (F := Ideal) .bf16 w bitsLt_bf16_f32) p q)).trans ?_
  rfl

/-- The finish at `(p, q)`: the entry plus the bias row's entry `q`. -/
theorem finish_apply (acc : Vec Ideal S256x4096 .f32) (b : Vec Ideal S1x4096 .f32) (p : Fin 256) (q : Fin 4096) :
    k0_pay3 (F := Ideal) acc b (ix2 p q) = acc (ix2 p q) + b (ix2 (0 : Fin 1) q) := by
  unfold k0_pay3
  simp only [shapeCast_self]
  exact congrArg (acc (ix2 p q) + ·) (broadcastTo_1b_ab_apply b broadcasts_S1x4096_S256x4096 p q)

end Cert.KernelIdeal.BodyAt

end
-- ==== Proof.StretchSum.lean ====
/-
  A sum over a long axis, taken a stretch at a time.

  `upTo f n` is the sum of the first `n` terms of `f : Fin K → M`.  Nothing has been added before the first
  term, all `K` terms are the whole sum, and `c` more terms add the sum of those `c` terms: a sum over the long
  axis is what an accumulator holds after it has been reset and then fed the axis in consecutive stretches.
  Only that addition is commutative and associative is used, so the law holds on the extended reals at
  infinite entries too.
-/
import Mathlib.Algebra.BigOperators.Fin

open scoped BigOperators

namespace StretchSum

variable {M : Type*} [AddCommMonoid M] {K : ℕ}

/-- The sum of the first `n` terms of `f` (terms past the axis count as zero; none is ever asked for). -/
def upTo (f : Fin K → M) (n : ℕ) : M :=
  ∑ k ∈ Finset.range n, if h : k < K then f ⟨k, h⟩ else 0

/-- Before the first term the sum is zero. -/
theorem upTo_zero (f : Fin K → M) : upTo f 0 = 0 := Finset.sum_range_zero _

/-- All `K` terms: the whole sum. -/
theorem upTo_all (f : Fin K → M) : upTo f K = ∑ k, f k := by
  unfold upTo
  rw [← Fin.sum_univ_eq_sum_range (fun k => if h : k < K then f ⟨k, h⟩ else 0) K]
  exact Finset.sum_congr rfl fun k _ => dif_pos k.isLt

/-- A stretch of `c` more terms adds the sum of those terms. -/
theorem upTo_add (f : Fin K → M) (n c : ℕ) (h : n + c ≤ K) :
    upTo f (n + c) = upTo f n + ∑ j : Fin c, f ⟨n + j.val, by have := j.isLt; omega⟩ := by
  unfold upTo
  rw [Finset.sum_range_add, ← Fin.sum_univ_eq_sum_range (fun x => if h : n + x < K then f ⟨n + x, h⟩ else 0) c]
  congr 1
  exact Finset.sum_congr rfl fun j _ => dif_pos (by have := j.isLt; omega)

end StretchSum
-- ==== Proof.Linear.lean ====
/-
  The dense layer both programs compute, entry by entry.

  For inputs `x` [8192, 4096], weights `w` [4096, 4096] (one row per output feature) and a bias `b` [4096],
  `y[n, o] = Σ_k x[n, k] · w[o, k] + b[o]`: row `n` of the inputs against row `o` of the weights, plus the
  bias of feature `o`.  `term x w n o k` is the `k`-th product of that sum, so a sum of the first so many
  terms (`StretchSum.upTo`) is what has been accumulated when only a prefix of the long axis has been seen.
-/
import Idealize.ShloMosaic.Lib.ValueIdx
import proofs.«146340_j15874199126079_1_alg».proof.Proof.StretchSum

noncomputable section

open scoped BigOperators

namespace Linear

open Idealize.ShloMosaic Idealize.ShloMosaic.ValueIdx

/-- The `k`-th product of entry `(n, o)`: `x[n, k] · w[o, k]`. -/
def term (x : (⟨2, ![8192, 4096]⟩ : Shape).Idx → EReal) (w : (⟨2, ![4096, 4096]⟩ : Shape).Idx → EReal)
    (n : Fin 8192) (o : Fin 4096) : Fin 4096 → EReal :=
  fun k => x (ix2 n k) * w (ix2 o k)

/-- Entry `(n, o)` of the layer. -/
def entry (x : (⟨2, ![8192, 4096]⟩ : Shape).Idx → EReal) (w : (⟨2, ![4096, 4096]⟩ : Shape).Idx → EReal)
    (b : (⟨1, ![4096]⟩ : Shape).Idx → EReal) (n : Fin 8192) (o : Fin 4096) : EReal :=
  (∑ k : Fin 4096, term x w n o k) + b (ix1 o)

/-- The whole result array. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b ⟨(i 0).val, idx2_lt0 i⟩ ⟨(i 1).val, idx2_lt1 i⟩

theorem layer_apply (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    layer x w b (ix2 n o) = entry x w b n o := rfl

/-- All 4096 products and the bias: the entry. -/
theorem entry_eq_upTo (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    StretchSum.upTo (term x w n o) 4096 + b (ix1 o) = entry x w b n o := by
  rw [StretchSum.upTo_all]; rfl

end Linear

end
-- ==== Proof.Accum.lean ====
/-
  The invariant of the accumulation.

  Fix a row `p` of a row block and an output feature `q`, and let `r` be the row of the inputs that row `p` of
  the block of point `n` is.  After point `n` the scratch holds at `(p, q)` the sum of the first
  `512·(n % 8) + 512` products `x[r, k] · w[q, k]`: the first point of a row block starts from zero and adds
  the first stretch of 512, every later point adds the next stretch to what the point before left.  By induction
  on the point; the rows of the block do not change inside a row block.  Read at the ideal values.
-/
import proofs.«146340_j15874199126079_1_alg».proof.Proof.Carried
import proofs.«146340_j15874199126079_1_alg».proof.Proof.BodyAt
import proofs.«146340_j15874199126079_1_alg».proof.Proof.Linear

noncomputable section

open scoped BigOperators
open Idealize.ShloMosaic Idealize.ShloMosaic.TcCoe Idealize.SL.Sem Idealize.ShloMosaic.ValueIdx

namespace StretchSum

/-- Nothing has been added when no term has been seen, however the count is spelt. -/
theorem upTo_of_eq_zero {M : Type*} [AddCommMonoid M] {K : ℕ} (f : Fin K → M) (n : ℕ) (h : n = 0) : upTo f n = 0 := by
  subst h; exact upTo_zero f

end StretchSum

namespace Cert.KernelIdeal.Accum

open Cert.KernelIdeal Cert.KernelIdeal.Gen Cert.KernelIdeal.Blocks Cert.KernelIdeal.Carried

variable (m : (ℓ : Loc nD τ sig) → Buf (Elt Ideal) ℓ)

/-- The products of entry `(r, q)` along the contracted axis. -/
abbrev prods (c : Dev nD) (r : Fin 8192) (q : Fin 4096) : Fin 4096 → EReal :=
  Linear.term (xarr m c) (warr m c) r q

/-- One step at point `t`, at `(p, q)`: the running entry plus stretch `t % 8` of the products. -/
theorem step_at (c : Dev nD) (t : Fin cfg0.N) (a : Vec Ideal S256x4096 .f32) (p : Fin 256) (q : Fin 4096) (r : Fin 8192)
    (hr : r.val = 256 * (t.val / 8) + p.val) :
    k0_pay2 (F := Ideal) (xblk m c t) (wblk m c t) a (ix2 p q)
      = a (ix2 p q) + ∑ j : Fin 512, prods m c r q ⟨512 * (t.val % 8) + j.val, by have := j.isLt; omega⟩ := by
  refine (BodyAt.step_apply (xblk m c t) (wblk m c t) a p q).trans ?_
  refine congrArg (a (ix2 p q) + ·) (Finset.sum_congr rfl fun j _ => ?_)
  exact congrArg₂ (· * ·)
    (xblk_apply m c t p j r ⟨512 * (t.val % 8) + j.val, by have := j.isLt; omega⟩ hr rfl)
    (wblk_apply m c t q j ⟨512 * (t.val % 8) + j.val, by have := j.isLt; omega⟩ rfl)

/-- After the first point of a row block: the first stretch. -/
theorem acc_first_eq (c : Dev nD) (t : Fin cfg0.N) (h0 : t.val % 8 = 0) (p : Fin 256) (q : Fin 4096) (r : Fin 8192)
    (hr : r.val = 256 * (t.val / 8) + p.val) :
    acc m c t (ix2 p q) = StretchSum.upTo (prods m c r q) (512 * (t.val % 8) + 512) := by
  rw [acc_first m c t h0]
  refine (step_at m c t _ p q r hr).trans ?_
  rw [BodyAt.reset_apply, StretchSum.upTo_add _ (512 * (t.val % 8)) 512 (by omega),
    StretchSum.upTo_of_eq_zero _ _ (by omega)]

/-- After any other point: one more stretch on what the point before left. -/
theorem acc_next_eq (c : Dev nD) (t : Fin cfg0.N) (h0 : ¬t.val % 8 = 0) (p : Fin 256) (q : Fin 4096) (r : Fin 8192)
    (hr : r.val = 256 * (t.val / 8) + p.val)
    (ih : accBefore m c t (ix2 p q) = StretchSum.upTo (prods m c r q) (512 * (t.val % 8))) :
    acc m c t (ix2 p q) = StretchSum.upTo (prods m c r q) (512 * (t.val % 8) + 512) := by
  rw [acc_next m c t h0]
  refine (step_at m c t _ p q r hr).trans ?_
  rw [ih]
  exact (StretchSum.upTo_add _ (512 * (t.val % 8)) 512 (by omega)).symm

/-- THE INVARIANT, by induction on the point. -/
theorem acc_eq (c : Dev nD) : ∀ (n : ℕ) (hn : n < cfg0.N) (p : Fin 256) (q : Fin 4096) (r : Fin 8192),
    r.val = 256 * (n / 8) + p.val →
    acc m c ⟨n, hn⟩ (ix2 p q) = StretchSum.upTo (prods m c r q) (512 * (n % 8) + 512)
  | 0, hn, p, q, r, hr => acc_first_eq m c ⟨0, hn⟩ rfl p q r hr
  | n + 1, hn, p, q, r, hr => by
    by_cases h0 : (n + 1) % 8 = 0
    · exact acc_first_eq m c ⟨n + 1, hn⟩ h0 p q r hr
    · refine acc_next_eq m c ⟨n + 1, hn⟩ h0 p q r hr ?_
      have ih := acc_eq c n (Nat.lt_of_succ_lt hn) p q r (by omega)
      have e : 512 * (n % 8) + 512 = 512 * ((n + 1) % 8) := by omega
      rw [e] at ih
      exact ih

end Cert.KernelIdeal.Accum

end
-- ==== Proof.LayerValue.lean ====
/-
  What the kernel's result array holds after the run: the layer.

  Only the last point of each row block writes the output block back.  What it writes is, at `(p, q)`, the scratch
  entry it has just completed — all eight stretches, so all 4096 products of row `256·(t/8) + p` of the inputs
  against row `q` of the weights — plus the bias entry `q`: the layer's entry.  The 32 written blocks are the 32
  row blocks of the result, so every entry of the array is the layer's.
-/
import proofs.«146340_j15874199126079_1_alg».proof.Proof.Accum
import proofs.«146340_j15874199126079_1_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Blocks Cert.KernelIdeal.Carried Cert.KernelIdeal.Accum

variable (m : (ℓ : Loc nD τ sig) → Buf (Elt Ideal) ℓ) (ρ : Dev nD → PrngReg)

/-- The layer of the launch contents of the three arguments, as contents of the result array. -/
abbrev result (c : Dev nD) : Buf (Elt Ideal) ((c : Thread nD τ).loc main_v1) :=
  Linear.layer (xarr m c) (warr m c) (barr m c)

/-- What the last point of a row block stores at `(p, q)` of the output block: the layer's entry. -/
theorem stored_apply (c : Dev nD) (t : Fin cfg0.N) (h7 : t.val % 8 = 7) (p : Fin 256) (q : Fin 4096) (r : Fin 8192)
    (hr : r.val = 256 * (t.val / 8) + p.val) :
    k0_pay3 (F := Ideal) (acc m c t) (bblk m c t) (ix2 p q) = Linear.entry (xarr m c) (warr m c) (barr m c) r q := by
  refine (BodyAt.finish_apply (acc m c t) (bblk m c t) p q).trans ?_
  rw [acc_eq m c t.val t.isLt p q r hr, bblk_apply m c t q]
  have e : 512 * (t.val % 8) + 512 = 4096 := by omega
  rw [e]
  exact Linear.entry_eq_upTo _ _ _ r q

/-- What a writing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 256 := lt_of_lt_of_eq t.isLt (show cfg0.N = 256 from N_0)
  rw [Value.flushed3 m c t, out_last m c t h7]
  funext y
  show k0_pay3 (F := Ideal) (acc m c t) (bblk m c t) y = result m c (((cfg0.win 3).blk t).view.emb y)
  obtain ⟨p, q, rfl⟩ : ∃ (p : Fin 256) (q : Fin 4096), y = ix2 p q := ⟨y 0, y 1, eq_ix2 y⟩
  have hp := p.isLt
  rw [oblk_emb t p q ⟨256 * (t.val / 8) + p.val, by omega⟩ rfl]
  exact stored_apply m c t h7 p q _ rfl

/-- An index of the result array is in point `t`'s block iff each coordinate is in the block's range. -/
theorem mem_oblk (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Row `n` of the result lies in the block the last point of row block `n / 256` writes. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 256 := N_0
  obtain ⟨t, ht⟩ : ∃ t : Fin cfg0.N, t.val = 8 * ((i 0).val / 256) + 7 := ⟨⟨8 * ((i 0).val / 256) + 7, by rw [hN]; omega⟩, rfl⟩
  refine ⟨t, (flush0_3 t).mpr (by omega), ?_⟩
  rw [mem_oblk]
  have e0 := (idx_facts t).2.2.2.2.2.2.1
  have e1 := (idx_facts t).2.2.2.2.2.2.2
  intro a
  match a with
  | ⟨0, _⟩ =>
    show win0_3.index t 0 * 256 ≤ (i 0).val ∧ (i 0).val < win0_3.index t 0 * 256 + 256
    rw [e0]; omega
  | ⟨1, _⟩ =>
    show win0_3.index t 1 * 4096 ≤ (i 1).val ∧ (i 1).val < win0_3.index t 1 * 4096 + 4096
    rw [e1]; omega

/-- The result array after the run is the layer. -/
theorem final (c : Dev nD) : (dats m 0 c).arrAt 3 cfg0.N = result m c :=
  (dats m 0 c).arrAt_eq_of_cover 3 (result m c) (flushed_eq m c) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LayerValue

end
-- ==== Proof.RefLayer.lean ====
/-
  The reference computes the layer: its `dot_general` contracts the second axis of the inputs with the second
  axis of the weights, so entry `(n, o)` is row `n` against row `o`; the bias is broadcast to one row and then
  down the rows, so it adds `b[o]`.
-/
import proofs.«146340_j15874199126079_1_alg».proof.Proof.Gen.ReferenceIdeal.Read
import proofs.«146340_j15874199126079_1_alg».proof.Proof.Linear

noncomputable section

open scoped BigOperators
open Idealize.ShloMosaic Idealize.ShloMosaic.TcCoe Idealize.ShloMosaic.ValueIdx

namespace Cert.ReferenceIdeal.RefValue

open Cert.ReferenceIdeal

/-- The reference's result, as a function of its three arguments, is the layer. -/
theorem ref_is_layer (x : (⟨S8192x4096, .f32⟩ : BufTy).Contents (Elt Ideal)) (w : (⟨S4096x4096, .f32⟩ : BufTy).Contents (Elt Ideal))
    (b : (⟨S4096, .f32⟩ : BufTy).Contents (Elt Ideal)) :
    Read.val_main_v3 (F := Ideal) x w b = Linear.layer x w b := by
  funext i
  obtain ⟨n, o, rfl⟩ : ∃ (n : Fin 8192) (o : Fin 4096), i = ix2 n o := ⟨i 0, i 1, eq_ix2 i⟩
  have el : ∀ k : Fin 4096, Read.lidx_main_v0 (ix2 n o) k = ix2 n k := fun k =>
    funext fun a => Fin.ext (by match a with | ⟨0, _⟩ => rfl | ⟨1, _⟩ => rfl)
  have er : ∀ k : Fin 4096, Read.ridx_main_v0 (ix2 n o) k = ix2 o k := fun k =>
    funext fun a => Fin.ext (by match a with | ⟨0, _⟩ => rfl | ⟨1, _⟩ => rfl)
  have eb : Read.idx_main_v1 (Read.idx_main_v2 (ix2 n o)) = ix1 o :=
    funext fun a => Fin.ext (by match a with | ⟨0, _⟩ => rfl)
  rw [Read.val_main_v3_apply, Read.val_main_v0_apply, Read.val_main_v2_apply, Read.val_main_v1_apply, eb]
  simp only [el, er]
  rfl

end Cert.ReferenceIdeal.RefValue

end
-- ==== Proof.lean ====
/-
  A dense layer `y = x · wᵀ + b` (x [8192, 4096], w [4096, 4096] with one row per output feature, b [4096]), computed by
  a kernel that walks a 32 × 8 grid — 32 row blocks of 256 rows, the contracted axis of 4096 cut into 8 stretches of
  512 — keeping a running [256, 4096] block in a scratch buffer: reset to zero at the first stretch, increased at every
  stretch by the matrix unit's product of the bf16-narrowed input and weight blocks, and written out with the bias
  added at the last stretch.  The reference contracts the whole axis at once and adds the bias.

  Over the extended reals narrowing to bf16 changes nothing and a sum may be taken in consecutive stretches, so
  both programs leave `Σ_k x[n, k] · w[o, k] + b[o]` at `(n, o)` (`Linear.layer`): the kernel by the invariant
  of its accumulation (Proof/Accum.lean) read through the blocks its last stretch writes (Proof/LayerValue.lean), the
  reference by reading its four operations at an index (Proof/RefLayer.lean).  Only commutativity and associativity of
  addition are used, so finiteness of the inputs is not needed.  The frames are the generated ones (the
  reference's is its generated run with the result dropped), and the idealization rewrote nothing.
-/
import proofs.«146340_j15874199126079_1_alg».proof.Defs
import proofs.«146340_j15874199126079_1_alg».proof.Proof.Gen.Kernel
import proofs.«146340_j15874199126079_1_alg».proof.Proof.Gen.Kernel.Skeleton
import proofs.«146340_j15874199126079_1_alg».proof.Proof.Gen.Kernel.Launch
import proofs.«146340_j15874199126079_1_alg».proof.Proof.Gen.Kernel.Points
import proofs.«146340_j15874199126079_1_alg».proof.Proof.Gen.Kernel.Frame
import proofs.«146340_j15874199126079_1_alg».proof.Proof.Gen.KernelIdeal
import proofs.«146340_j15874199126079_1_alg».proof.Proof.Gen.KernelIdeal.Skeleton
import proofs.«146340_j15874199126079_1_alg».proof.Proof.Gen.KernelIdeal.Launch
import proofs.«146340_j15874199126079_1_alg».proof.Proof.Gen.KernelIdeal.Points
import proofs.«146340_j15874199126079_1_alg».proof.Proof.Gen.KernelIdeal.Frame
import proofs.«146340_j15874199126079_1_alg».proof.Proof.Gen.KernelIdeal.Value
import proofs.«146340_j15874199126079_1_alg».proof.Proof.Gen.ReferenceIdeal
import proofs.«146340_j15874199126079_1_alg».proof.Proof.Gen.ReferenceIdeal.Run
import proofs.«146340_j15874199126079_1_alg».proof.Proof.Gen.ReferenceIdeal.Read
import proofs.«146340_j15874199126079_1_alg».proof.Proof.Gen.Pre_finite_inputs
import Idealize.ShloMosaic.Adequacy
import Idealize.ShloMosaic.Init
import proofs.«146340_j15874199126079_1_alg».proof.Proof.LayerValue
import proofs.«146340_j15874199126079_1_alg».proof.Proof.RefLayer

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- Both programs end with the layer of arguments that agree. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_is_layer _ _ _).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
